-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S4096x4096 .f32) (main_arg2 : FVec F S4096 .f32) (main_arg3 : IVec S4096x4096 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4096x4096 : Shape := ⟨2, ![4096, 4096]⟩
abbrev S4096 : Shape := ⟨1, ![4096]⟩
abbrev S1x4096 : Shape := ⟨2, ![1, 4096]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .hbm, ⟨8, _⟩ => ⟨S4096x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x4096.size a
  hwx0_0 : ∀ i : grid0.Coords, EltTy.bits .bf16 = 32 ∨ (Rect.block (s := S4096x4096) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S4096x4096.size a
  hwx0_3 : ∀ i : grid0.Coords, EltTy.bits .f32 = 32 ∨ (Rect.block (s := S4096x4096) S2048x1024.size (cc0_transform_3 i) (hinb0_3 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v2) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096, .f32⟩
  | .hbm, ⟨3, _⟩ => ⟨S4096x4096, .i32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S1x4096, .f32⟩
  | .hbm, ⟨8, _⟩ => ⟨S4096x4096, .f32⟩
  | .hbm, ⟨9, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_1_0_0_n_n_wf : DotDims.WF S4096x4096 S4096x4096 S4096x4096 [1] [1] [0] [0] [] []

variable [Facts₀]

def dot_S4096x4096_S4096x4096_S4096x4096_1_1_0_0_n_n : DotDims S4096x4096 S4096x4096 S4096x4096 where
  lhsContracting := [1]
  rhsContracting := [1]
  lhsNonContracting := [0]
  rhsNonContracting := [0]
  lhsBatch := []
  rhsBatch := []
  wf := dot_S4096x4096_S4096x4096_S4096x4096_1_1_0_0_n_n_wf

class Facts : Prop extends Facts₀ where

variable [Facts]
-- ==== Proof.Step.lean ====
/-
  One grid point's arithmetic on the [2048, 1024] output block, read at one index of the block, at the ideal
  values (floats are extended reals, a change of float format is the identity):

    · the zero block is `0` everywhere;
    · the accumulating step adds to the block's entry `(p, q)` the product of row `p` of the [2048, 1024]
      activation block with row `q` of the [1024, 1024] weight block, summed over the 1024 shared columns
      (the matrix product contracts the LAST axis of both operands);
    · the closing step adds entry `(0, q)` of the [1, 1024] bias row to entry `(p, q)`.
-/
import proofs.«423909_j63771674411297_3_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Step

open Cert.KernelIdeal Cert.KernelIdeal.Gen Idealize.ShloMosaic Idealize.ShloMosaic.ValueIdx

/-! ## The product's operand indices, coordinate by coordinate -/

/-- The left operand is read on the output's row … -/
theorem lhs_row (j : S2048x1024.Idx) (q : dot_S2048x1024_S1024x1024_S2048x1024_1_1_0_0_n_n.contr.Idx) :
    (dot_S2048x1024_S1024x1024_S2048x1024_1_1_0_0_n_n.lhsIdx j q 0).val = (j 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl

/-- … at the contracted column; -/
theorem lhs_col (j : S2048x1024.Idx) (q : dot_S2048x1024_S1024x1024_S2048x1024_1_1_0_0_n_n.contr.Idx) :
    (dot_S2048x1024_S1024x1024_S2048x1024_1_1_0_0_n_n.lhsIdx j q 1).val = (q ⟨0, by decide⟩).val :=
  dot_S2048x1024_S1024x1024_S2048x1024_1_1_0_0_n_n.lhsIdx_val_of_single rfl j q

/-- the right operand on the row the output's COLUMN names … -/
theorem rhs_row (j : S2048x1024.Idx) (q : dot_S2048x1024_S1024x1024_S2048x1024_1_1_0_0_n_n.contr.Idx) :
    (dot_S2048x1024_S1024x1024_S2048x1024_1_1_0_0_n_n.rhsIdx j q 0).val = (j 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl

/-- … at the same contracted column. -/
theorem rhs_col (j : S2048x1024.Idx) (q : dot_S2048x1024_S1024x1024_S2048x1024_1_1_0_0_n_n.contr.Idx) :
    (dot_S2048x1024_S1024x1024_S2048x1024_1_1_0_0_n_n.rhsIdx j q 1).val = (q ⟨0, by decide⟩).val :=
  dot_S2048x1024_S1024x1024_S2048x1024_1_1_0_0_n_n.rhsIdx_val_of_single rfl j q

/-- The block product into a zero accumulator, at an index: the sum over the 1024 shared columns. -/
theorem product_apply (a : FVec Ideal S2048x1024 .bf16) (w : FVec Ideal S1024x1024 .bf16) (p : Fin 2048) (q : Fin 1024) :
    matmul dot_S2048x1024_S1024x1024_S2048x1024_1_1_0_0_n_n none a w (constant (F := Ideal) S2048x1024 .f32 0x00000000#32) (ix2 p q)
      = ∑ k : Fin 1024, a (ix2 p k) * w (ix2 q k) := by
  generalize hj : (ix2 p q : S2048x1024.Idx) = j
  have hj0 : (j 0).val = p.val := by rw [← hj]
  have hj1 : (j 1).val = q.val := by rw [← hj]
  simp only [matmul]
  rw [Ideal.matmul_constant_zero_apply, ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx j ((contrEquiv1 dot_S2048x1024_S1024x1024_S2048x1024_1_1_0_0_n_n 1024 rfl rfl).symm k) = ix2 p k := funext fun a => Fin.ext (by
    match a with
    | ⟨0, _⟩ => exact (lhs_row _ _).trans hj0
    | ⟨1, _⟩ => exact (lhs_col _ _).trans hk)
  have er : dot_S2048x1024_S1024x1024_S2048x1024_1_1_0_0_n_n.rhsIdx j ((contrEquiv1 dot_S2048x1024_S1024x1024_S2048x1024_1_1_0_0_n_n 1024 rfl rfl).symm k) = ix2 q k := funext fun a => Fin.ext (by
    match a with
    | ⟨0, _⟩ => exact (rhs_row _ _).trans hj1
    | ⟨1, _⟩ => exact (rhs_col _ _).trans hk)
  rw [el, er]

/-! ## The three stored values at an index -/

/-- The zero block. -/
theorem zero_apply (j : S2048x1024.Idx) : k0_pay1 (F := Ideal) j = (0 : EReal) := by
  unfold k0_pay1
  exact Ideal.ofBits_zero_f32

/-- The accumulating step: the block's entry plus the row-by-row product over the shared columns. -/
theorem accumulate_apply (w : Vec Ideal S1024x1024 .f32) (acc : Vec Ideal S2048x1024 .f32) (a : Vec Ideal S2048x1024 .bf16)
    (p : Fin 2048) (q : Fin 1024) :
    k0_pay2 (F := Ideal) w acc a (ix2 p q) = acc (ix2 p q) + ∑ k : Fin 1024, a (ix2 p k) * w (ix2 q k) := by
  unfold k0_pay2
  rw [addf_apply, shapeCast_self, shapeCast_self, product_apply]
  rfl

/-- The closing step: the block's entry plus the bias row's entry in the same column. -/
theorem addBias_apply (acc : Vec Ideal S2048x1024 .f32) (b : Vec Ideal S1x1024 .f32) (p : Fin 2048) (q : Fin 1024) :
    k0_pay3 (F := Ideal) acc b (ix2 p q) = acc (ix2 p q) + b (ix2 (0 : Fin 1) q) := by
  unfold k0_pay3
  rw [addf_apply, shapeCast_self, shapeCast_self]
  refine congrArg (acc (ix2 p q) + ·) ?_
  exact broadcastTo_apply b broadcasts_S1x1024_S2048x1024 (ix2 p q) (ix2 (0 : Fin 1) q) (fun a => by
    match a with
    | ⟨0, _⟩ => rfl
    | ⟨1, _⟩ => rfl)

/-- A whole run of four points on one output block, at an index: from zero, the four column blocks' products added in
    turn, then the bias row's entry. -/
theorem run_apply (a0 a1 a2 a3 : Vec Ideal S2048x1024 .bf16) (w0 w1 w2 w3 : Vec Ideal S1024x1024 .f32)
    (b : Vec Ideal S1x1024 .f32) (p : Fin 2048) (q : Fin 1024) :
    k0_pay3 (F := Ideal) (k0_pay2 w3 (k0_pay2 w2 (k0_pay2 w1 (k0_pay2 w0 (k0_pay1 (F := Ideal)) a0) a1) a2) a3) b (ix2 p q)
      = ((((0 + ∑ k : Fin 1024, a0 (ix2 p k) * w0 (ix2 q k)) + ∑ k : Fin 1024, a1 (ix2 p k) * w1 (ix2 q k))
            + ∑ k : Fin 1024, a2 (ix2 p k) * w2 (ix2 q k)) + ∑ k : Fin 1024, a3 (ix2 p k) * w3 (ix2 q k))
          + b (ix2 (0 : Fin 1) q) := by
  rw [addBias_apply, accumulate_apply, accumulate_apply, accumulate_apply, accumulate_apply, zero_apply]

end Cert.KernelIdeal.Step

end
-- ==== Proof.Blocks.lean ====
/-
  Where each grid point's input blocks sit in their arrays, and what those arrays hold when the region is entered.

  The grid is 2 × 4 × 4 (row block r, column block j, contraction block s), walked row-major: point
  `t = 16·r + 4·j + s`. At point `t`
    · the activation block is rows `2048·r …`, columns `1024·s …` of the [4096, 4096] activation,
    · the weight block is rows `1024·j …`, columns `1024·s …` of the [4096, 4096] weight,
    · the bias block is columns `1024·j …` of the [1, 4096] bias row.
  The activation is the input times the mask read as a float (the change to the narrower float format is the identity
  at the ideal values); the bias row is the bias vector laid out as one row; the weight is the argument itself.
-/
import proofs.«423909_j63771674411297_3_alg».proof.Proof.Gen.KernelIdeal.Value
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-! ## The index maps over the grid -/

/-- The three input windows' block indices at point `t`, decided over the 32 points. -/
theorem block_index : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = 0 ∧ win0_2.index t (1 : Fin 2) = t.val / 4 % 4 :=
  (by decide +kernel : ∀ t : Fin grid0.N, _)

/-! ## The blocks, at their literal types -/

/-- The activation block at point `n`. -/
abbrev aBlk (c : Dev nD) (n : ℕ) (h : n < cfg0.N) : Vec F S2048x1024 .bf16 := iblk m c 0 ⟨n, h⟩
/-- The weight block at point `n`. -/
abbrev wBlk (c : Dev nD) (n : ℕ) (h : n < cfg0.N) : Vec F S1024x1024 .f32 := iblk m c 1 ⟨n, h⟩
/-- The bias block at point `n`. -/
abbrev bBlk (c : Dev nD) (n : ℕ) (h : n < cfg0.N) : Vec F S1x1024 .f32 := iblk m c 2 ⟨n, h⟩

/-- Entry `(p, k)` of the activation block at point `n` is the activation at row `2048·(n / 16) + p`, column
    `1024·(n % 4) + k`. -/
theorem aBlk_apply (c : Dev nD) (n : ℕ) (h : n < cfg0.N) (p : Fin 2048) (k : Fin 1024) (i0 kk : Fin 4096)
    (h0 : i0.val = n / 16 * 2048 + p.val) (h1 : kk.val = n % 4 * 1024 + k.val) :
    aBlk m c n h (ix2 p k) = V m c main_v2 (ix2 i0 kk) := by
  have e0 : win0_0.index ⟨n, h⟩ (0 : Fin 2) = n / 16 := (block_index ⟨n, h⟩).1
  have e1 : win0_0.index ⟨n, h⟩ (1 : Fin 2) = n % 4 := (block_index ⟨n, h⟩).2.1
  show V m c main_v2 (((cfg0.win 0).blk ⟨n, h⟩).view.emb (ix2 p k)) = V m c main_v2 (ix2 i0 kk)
  refine congrArg _ (funext fun a => Fin.ext ?_)
  match a with
  | ⟨0, _⟩ => show win0_0.index ⟨n, h⟩ (0 : Fin 2) * 2048 + 1 * p.val = i0.val; rw [e0, h0]; omega
  | ⟨1, _⟩ => show win0_0.index ⟨n, h⟩ (1 : Fin 2) * 1024 + 1 * k.val = kk.val; rw [e1, h1]; omega

/-- Entry `(q, k)` of the weight block at point `n` is the weight at row `1024·(n / 4 % 4) + q`, column
    `1024·(n % 4) + k`. -/
theorem wBlk_apply (c : Dev nD) (n : ℕ) (h : n < cfg0.N) (q k : Fin 1024) (i1 kk : Fin 4096)
    (h0 : i1.val = n / 4 % 4 * 1024 + q.val) (h1 : kk.val = n % 4 * 1024 + k.val) :
    wBlk m c n h (ix2 q k) = V m c main_arg1 (ix2 i1 kk) := by
  have e0 : win0_1.index ⟨n, h⟩ (0 : Fin 2) = n / 4 % 4 := (block_index ⟨n, h⟩).2.2.1
  have e1 : win0_1.index ⟨n, h⟩ (1 : Fin 2) = n % 4 := (block_index ⟨n, h⟩).2.2.2.1
  show V m c main_arg1 (((cfg0.win 1).blk ⟨n, h⟩).view.emb (ix2 q k)) = V m c main_arg1 (ix2 i1 kk)
  refine congrArg _ (funext fun a => Fin.ext ?_)
  match a with
  | ⟨0, _⟩ => show win0_1.index ⟨n, h⟩ (0 : Fin 2) * 1024 + 1 * q.val = i1.val; rw [e0, h0]; omega
  | ⟨1, _⟩ => show win0_1.index ⟨n, h⟩ (1 : Fin 2) * 1024 + 1 * k.val = kk.val; rw [e1, h1]; omega

/-- Entry `(0, q)` of the bias block at point `n` is the bias row at column `1024·(n / 4 % 4) + q`. -/
theorem bBlk_apply (c : Dev nD) (n : ℕ) (h : n < cfg0.N) (q : Fin 1024) (i1 : Fin 4096)
    (h0 : i1.val = n / 4 % 4 * 1024 + q.val) :
    bBlk m c n h (ix2 (0 : Fin 1) q) = V m c main_v3 (ix2 (0 : Fin 1) i1) := by
  have e0 : win0_2.index ⟨n, h⟩ (0 : Fin 2) = 0 := (block_index ⟨n, h⟩).2.2.2.2.1
  have e1 : win0_2.index ⟨n, h⟩ (1 : Fin 2) = n / 4 % 4 := (block_index ⟨n, h⟩).2.2.2.2.2
  show V m c main_v3 (((cfg0.win 2).blk ⟨n, h⟩).view.emb (ix2 (0 : Fin 1) q)) = V m c main_v3 (ix2 (0 : Fin 1) i1)
  refine congrArg _ (funext fun a => Fin.ext ?_)
  match a with
  | ⟨0, _⟩ => show win0_2.index ⟨n, h⟩ (0 : Fin 2) * 1 + 1 * 0 = 0; rw [e0]
  | ⟨1, _⟩ => show win0_2.index ⟨n, h⟩ (1 : Fin 2) * 1024 + 1 * q.val = i1.val; rw [e1, h0]; omega

/-! ## What the host operations before the region leave in the staged arrays -/

/-- The activation: the input times the mask read as a float, in the narrower float format. -/
theorem activation_eq (c : Dev nD) :
    V m c main_v2 = (truncf .bf16 (mulf (m ((c : Thread nD τ).loc main_arg0)) (sitofp .f32 (m ((c : Thread nD τ).loc main_arg3)))) bitsLt_bf16_f32 : FVec F S4096x4096 .bf16) := by
  dsimp only [Gen.V, Gen.hostOps0]; after_results

/-- The bias row: the bias vector laid out as [1, 4096]. -/
theorem biasRow_eq (c : Dev nD) :
    V m c main_v3 = (shapeCast S1x4096 (m ((c : Thread nD τ).loc main_arg2)) shapeCasts_S4096_S1x4096 : Vec F S1x4096 .f32) := by
  dsimp only [Gen.V, Gen.hostOps0]; after_results; rfl

end Cert.KernelIdeal.Blocks

end
-- ==== Proof.Sums.lean ====
/-
  A sum over `n·b` consecutive terms is the sum of its `n` consecutive blocks of `b` terms. Only commutativity and
  associativity of the addition enter, so it holds in any commutative additive monoid — the extended reals included,
  infinities and all.
-/
import Mathlib.Algebra.BigOperators.Fin
import Mathlib.Algebra.BigOperators.Group.Finset.Basic

namespace Cert.Sums

open Finset

variable {β : Type*} [AddCommMonoid β]

/-- Over the naturals: the first `n·b` terms, block by block. -/
theorem sum_range_blocks (b : ℕ) (f : ℕ → β) :
    ∀ n : ℕ, ∑ k ∈ range (n * b), f k = ∑ s ∈ range n, ∑ k ∈ range b, f (s * b + k)
  | 0 => by rw [Nat.zero_mul, sum_range_zero, sum_range_zero]
  | n + 1 => by rw [Nat.succ_mul, sum_range_add, sum_range_succ, sum_range_blocks b f n]

/-- A function on the first `N` naturals continued by zero. -/
def ext0 {N : ℕ} (f : Fin N → β) (k : ℕ) : β := if h : k < N then f ⟨k, h⟩ else 0

theorem ext0_of_lt {N : ℕ} (f : Fin N → β) (k : ℕ) (h : k < N) : ext0 f k = f ⟨k, h⟩ := dif_pos h

/-- Over `Fin N` with `N = n·b`: the sum is the sum over the `n` blocks of each block's `b` terms. -/
theorem sum_fin_blocks {N : ℕ} (n b : ℕ) (hN : N = n * b) (f : Fin N → β) :
    ∑ k : Fin N, f k = ∑ s ∈ range n, ∑ k : Fin b, ext0 f (s * b + k.val) := by
  subst hN
  rw [sum_fin_eq_sum_range]
  show ∑ i ∈ range (n * b), ext0 f i = _
  rw [sum_range_blocks]
  exact sum_congr rfl fun s _ => sum_range (fun k => ext0 f (s * b + k))

/-- Four blocks, added up from zero left to right. -/
theorem sum_fin_four_blocks {N : ℕ} (b : ℕ) (hN : N = 4 * b) (f : Fin N → β) :
    ∑ k : Fin N, f k
      = (((0 + ∑ k : Fin b, ext0 f (0 * b + k.val)) + ∑ k : Fin b, ext0 f (1 * b + k.val))
          + ∑ k : Fin b, ext0 f (2 * b + k.val)) + ∑ k : Fin b, ext0 f (3 * b + k.val) := by
  rw [sum_fin_blocks 4 b hN f, sum_range_succ, sum_range_succ, sum_range_succ, sum_range_succ, sum_range_zero]

end Cert.Sums
-- ==== Proof.Spec.lean ====
/-
  The function both programs compute, over the extended reals: a linear layer on a masked input,

      out[i₀, i₁] = Σₖ (x[i₀, k] · float(mask[i₀, k])) · w[i₁, k] + bias[i₁],     k over the 4096 shared columns,

  the weight stored row per output column (so the product contracts the last axis of both factors).
-/
import Idealize.ShloMosaic.Lib.ValueIdx
import Idealize.ShloMosaic.PureOps.Ideal

noncomputable section

namespace Cert.Spec

open Idealize.ShloMosaic Idealize.ShloMosaic.ValueIdx

/-- One term of the contraction: column `k` of input row `i₀`, masked, times column `k` of weight row `i₁`. -/
def term (x w : (⟨2, ![4096, 4096]⟩ : Shape).Idx → EReal) (mask : (⟨2, ![4096, 4096]⟩ : Shape).Idx → BitVec 32)
    (i0 i1 k : Fin 4096) : EReal :=
  (x (ix2 i0 k) * FloatOps.sitofp (F := Ideal) .f32 (mask (ix2 i0 k))) * w (ix2 i1 k)

/-- Entry `(i₀, i₁)` of the masked linear layer. -/
def entry (x w : (⟨2, ![4096, 4096]⟩ : Shape).Idx → EReal) (b : (⟨1, ![4096]⟩ : Shape).Idx → EReal)
    (mask : (⟨2, ![4096, 4096]⟩ : Shape).Idx → BitVec 32) (i0 i1 : Fin 4096) : EReal :=
  (∑ k : Fin 4096, term x w mask i0 i1 k) + b (ix1 i1)

/-- The masked linear layer, as an array. -/
def maskedLinear (x w : (⟨2, ![4096, 4096]⟩ : Shape).Idx → EReal) (b : (⟨1, ![4096]⟩ : Shape).Idx → EReal)
    (mask : (⟨2, ![4096, 4096]⟩ : Shape).Idx → BitVec 32) : (⟨2, ![4096, 4096]⟩ : Shape).Idx → EReal :=
  fun i => entry x w b mask (i 0) (i 1)

end Cert.Spec

end
-- ==== Proof.KernelValue.lean ====
/-
  What the kernel leaves in the output array is the masked linear layer.

  Output entry `(i₀, i₁)` lies in row block `r = i₀ / 2048`, column block `j = i₁ / 1024`, at place
  `(i₀ % 2048, i₁ % 1024)` of that block. The block is written by the run of four consecutive grid points
  `4·R … 4·R + 3` with `R = 4·r + j`: the first zeroes it, each of the four adds the product of the activation's and the
  weight's column block `s = 0, 1, 2, 3`, and the last adds the bias. So the entry ends at

      (((0 + B₀) + B₁) + B₂) + B₃ + bias[i₁],     B_s = Σ_{k < 1024} a[i₀, 1024·s + k] · w[i₁, 1024·s + k],

  which is the full contraction over the 4096 columns cut into its four consecutive blocks — an identity of any
  commutative additive monoid, so of the extended reals with no finiteness assumed.
-/
import proofs.«423909_j63771674411297_3_alg».proof.Proof.Step
import proofs.«423909_j63771674411297_3_alg».proof.Proof.Blocks
import proofs.«423909_j63771674411297_3_alg».proof.Proof.Sums
import proofs.«423909_j63771674411297_3_alg».proof.Proof.Spec

noncomputable section

namespace Cert.KernelIdeal.Result

open Cert.KernelIdeal Cert.KernelIdeal.Gen Idealize.ShloMosaic Idealize.ShloMosaic.TcCoe Idealize.SL.Sem
open Idealize.ShloMosaic.ValueIdx Cert.KernelIdeal.Blocks

variable (m : (ℓ : Loc nD τ sig) → Buf (Elt Ideal) ℓ)

/-! ## One run of four points -/

/-- At a point that neither opens nor closes its run the block gains one product. -/
theorem step_mid (c : Dev nD) (n : ℕ) (h : n < cfg0.N) (h0 : ¬n % 4 = 0) (h3 : ¬n % 4 = 3) (acc : Vec Ideal S2048x1024 .f32) :
    Value.step3 m c n h acc = k0_pay2 (wBlk m c n h) acc (aBlk m c n h) := by
  unfold Value.step3
  rw [if_pos ⟨h0, h3⟩]

/-- At the point that closes its run the block gains the last product and then the bias. -/
theorem step_last (c : Dev nD) (n : ℕ) (h : n < cfg0.N) (h3 : n % 4 = 3) (acc : Vec Ideal S2048x1024 .f32) :
    Value.step3 m c n h acc = k0_pay3 (k0_pay2 (wBlk m c n h) acc (aBlk m c n h)) (bBlk m c n h) := by
  unfold Value.step3
  rw [if_neg (fun hh => hh.2 h3), if_pos ⟨by omega, h3⟩]

/-- The run `4·R … 4·R + 3` leaves, at place `(p, q)` of its block, the four products added from zero and the bias. -/
theorem fold_apply (c : Dev nD) (R : ℕ) (h : 4 * R + 3 < cfg0.N) (p : Fin 2048) (q : Fin 1024) :
    Pipeline.accAt (Value.reset3 m c) (Value.step3 m c) (4 * R) 3 h (ix2 p q)
      = ((((0 + ∑ k : Fin 1024, aBlk m c (4 * R) (by omega) (ix2 p k) * wBlk m c (4 * R) (by omega) (ix2 q k))
              + ∑ k : Fin 1024, aBlk m c (4 * R + 1) (by omega) (ix2 p k) * wBlk m c (4 * R + 1) (by omega) (ix2 q k))
            + ∑ k : Fin 1024, aBlk m c (4 * R + 2) (by omega) (ix2 p k) * wBlk m c (4 * R + 2) (by omega) (ix2 q k))
          + ∑ k : Fin 1024, aBlk m c (4 * R + 3) h (ix2 p k) * wBlk m c (4 * R + 3) h (ix2 q k))
        + bBlk m c (4 * R + 3) h (ix2 (0 : Fin 1) q) := by
  have h0 : 4 * R < cfg0.N := by omega
  have h1 : 4 * R + 1 < cfg0.N := by omega
  have h2 : 4 * R + 2 < cfg0.N := by omega
  have e : Pipeline.accAt (Value.reset3 m c) (Value.step3 m c) (4 * R) 3 h
      = k0_pay3 (k0_pay2 (wBlk m c (4 * R + 3) h) (k0_pay2 (wBlk m c (4 * R + 2) h2) (k0_pay2 (wBlk m c (4 * R + 1) h1)
          (k0_pay2 (wBlk m c (4 * R) h0) (k0_pay1 (F := Ideal)) (aBlk m c (4 * R) h0)) (aBlk m c (4 * R + 1) h1))
          (aBlk m c (4 * R + 2) h2)) (aBlk m c (4 * R + 3) h)) (bBlk m c (4 * R + 3) h) := by
    show Value.step3 m c (4 * R + 3) h (Value.step3 m c (4 * R + 2) h2 (Value.step3 m c (4 * R + 1) h1 (Value.reset3 m c (4 * R) h0))) = _
    rw [step_last m c (4 * R + 3) h (by omega), step_mid m c (4 * R + 2) h2 (by omega) (by omega),
      step_mid m c (4 * R + 1) h1 (by omega) (by omega)]
    rfl
  rw [e]
  exact Step.run_apply (aBlk m c (4 * R) h0) (aBlk m c (4 * R + 1) h1) (aBlk m c (4 * R + 2) h2) (aBlk m c (4 * R + 3) h)
    (wBlk m c (4 * R) h0) (wBlk m c (4 * R + 1) h1) (wBlk m c (4 * R + 2) h2) (wBlk m c (4 * R + 3) h) (bBlk m c (4 * R + 3) h) p q

/-! ## The staged arrays at an index -/

/-- The four arguments, at their literal types. -/
abbrev xArg (c : Dev nD) : FVec Ideal S4096x4096 .f32 := m ((c : Thread nD τ).loc main_arg0)
abbrev wArg (c : Dev nD) : FVec Ideal S4096x4096 .f32 := m ((c : Thread nD τ).loc main_arg1)
abbrev bArg (c : Dev nD) : FVec Ideal S4096 .f32 := m ((c : Thread nD τ).loc main_arg2)
abbrev maskArg (c : Dev nD) : IVec S4096x4096 32 := m ((c : Thread nD τ).loc main_arg3)

/-- The activation: input times the mask read as a float. -/
theorem activation_apply (c : Dev nD) (i0 kk : Fin 4096) :
    V m c main_v2 (ix2 i0 kk)
      = xArg m c (ix2 i0 kk) * FloatOps.sitofp (F := Ideal) .f32 (maskArg m c (ix2 i0 kk)) := by
  rw [activation_eq]
  rfl

/-- The bias row's column `i₁` is the bias vector's entry `i₁`. -/
theorem biasRow_apply (c : Dev nD) (i1 : Fin 4096) :
    V m c main_v3 (ix2 (0 : Fin 1) i1) = bArg m c (ix1 i1) := by
  rw [biasRow_eq]
  exact shapeCast_apply _ shapeCasts_S4096_S1x4096 (ix2 (0 : Fin 1) i1) (ix1 i1) (by
    rw [Shape.rowMajor_val_one, Shape.rowMajor_val_two]
    show i1.val = 0 * 4096 + i1.val
    omega)

/-! ## The output array -/

/-- One column block's product, as the block's terms of the full contraction. -/
theorem block_sum (c : Dev nD) (n : ℕ) (h : n < cfg0.N) (s : ℕ) (p : Fin 2048) (q : Fin 1024) (i0 i1 : Fin 4096)
    (hs : n % 4 = s) (h0 : i0.val = n / 16 * 2048 + p.val) (h1 : i1.val = n / 4 % 4 * 1024 + q.val) :
    ∑ k : Fin 1024, aBlk m c n h (ix2 p k) * wBlk m c n h (ix2 q k)
      = ∑ k : Fin 1024, Sums.ext0 (Spec.term (xArg m c) (wArg m c) (maskArg m c) i0 i1) (s * 1024 + k.val) := by
  refine Finset.sum_congr rfl fun k _ => ?_
  have hs4 : s < 4 := by omega
  have hk : s * 1024 + k.val < 4096 := by have := k.isLt; omega
  rw [Sums.ext0_of_lt _ _ hk, aBlk_apply m c n h p k i0 ⟨s * 1024 + k.val, hk⟩ h0 (by rw [hs]),
    wBlk_apply m c n h q k i1 ⟨s * 1024 + k.val, hk⟩ h1 (by rw [hs]), activation_apply, V_main_arg1]
  rfl

/-- The kernel's output array is the masked linear layer of its arguments. -/
theorem G3_eq (c : Dev nD) :
    Value.G3 (F := Ideal) m c = Spec.maskedLinear (xArg m c) (wArg m c) (bArg m c) (maskArg m c) := by
  funext i
  have hi0 : (i 0).val < 4096 := (i 0).isLt
  have hi1 : (i 1).val < 4096 := (i 1).isLt
  obtain ⟨p, hp⟩ : ∃ p : Fin 2048, p.val = (i 0).val % 2048 := ⟨⟨(i 0).val % 2048, Nat.mod_lt _ (by decide)⟩, rfl⟩
  obtain ⟨q, hq⟩ : ∃ q : Fin 1024, q.val = (i 1).val % 1024 := ⟨⟨(i 1).val % 1024, Nat.mod_lt _ (by decide)⟩, rfl⟩
  have hR : Value.run3Of i = 4 * ((i 0).val / 2048) + (i 1).val / 1024 := by
    show 4 * ((i 0).val / 2048 - 0) + 1 * ((i 1).val / 1024 - 0) = _
    omega
  have hN : cfg0.N = 32 := N_0
  have hb : 4 * Value.run3Of i + 3 < cfg0.N := by rw [hR, hN]; omega
  have hl : Value.loc3Of i = ix2 p q := funext fun a => Fin.ext (by
    match a with
    | ⟨0, _⟩ => exact hp.symm
    | ⟨1, _⟩ => exact hq.symm)
  unfold Value.G3
  rw [dif_pos hb, hl, fold_apply m c (Value.run3Of i) hb p q]
  rw [block_sum m c (4 * Value.run3Of i) (by omega) 0 p q (i 0) (i 1) (by omega) (by omega) (by omega),
    block_sum m c (4 * Value.run3Of i + 1) (by omega) 1 p q (i 0) (i 1) (by omega) (by omega) (by omega),
    block_sum m c (4 * Value.run3Of i + 2) (by omega) 2 p q (i 0) (i 1) (by omega) (by omega) (by omega),
    block_sum m c (4 * Value.run3Of i + 3) hb 3 p q (i 0) (i 1) (by omega) (by omega) (by omega),
    bBlk_apply m c (4 * Value.run3Of i + 3) hb q (i 1) (by omega)]
  refine (congrArg (_ + ·) (biasRow_apply m c (i 1))).trans ?_
  show _ = Spec.entry _ _ _ _ (i 0) (i 1)
  unfold Spec.entry
  rw [Sums.sum_fin_four_blocks 1024 rfl]

end Cert.KernelIdeal.Result

end
-- ==== Proof.RefValue.lean ====
/-
  The reference computes the masked linear layer: its last stage, read at an index, is the sum over the 4096 shared
  columns of (input · float(mask)) times the weight row, plus the bias entry of the output's column — the bias vector
  broadcast first to a row and then down the rows, both of which read the vector at the output's column.
-/
import proofs.«423909_j63771674411297_3_alg».proof.Proof.Gen.ReferenceIdeal.Read
import proofs.«423909_j63771674411297_3_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

/-- The reference's result, as a function of its four arguments, is the masked linear layer. -/
theorem reference_eq (x0 x1 : (⟨S4096x4096, .f32⟩ : BufTy).Contents (Elt Ideal)) (x2 : (⟨S4096, .f32⟩ : BufTy).Contents (Elt Ideal))
    (x3 : (⟨S4096x4096, .i32⟩ : BufTy).Contents (Elt Ideal)) :
    val_main_v5 (F := Ideal) x0 x1 x2 x3 = Spec.maskedLinear x0 x1 x2 x3 := by
  funext i
  rw [val_main_v5_apply, val_main_v2_apply, val_main_v4_apply, val_main_v3_apply]
  show (∑ k : Fin 4096, val_main_v1 (F := Ideal) x0 x3 (lidx_main_v2 i k) * x1 (ridx_main_v2 i k)) + x2 (idx_main_v3 (idx_main_v4 i))
    = (∑ k : Fin 4096, Spec.term x0 x1 x3 (i 0) (i 1) k) + x2 (ix1 (i 1))
  have eb : idx_main_v3 (idx_main_v4 i) = ix1 (i 1) := funext fun a => by
    match a with
    | ⟨0, _⟩ => rfl
  rw [eb]
  refine congrArg (· + x2 (ix1 (i 1))) (Finset.sum_congr rfl fun k _ => ?_)
  have el : lidx_main_v2 i k = ix2 (i 0) k := funext fun a => by
    match a with
    | ⟨0, _⟩ => rfl
    | ⟨1, _⟩ => rfl
  have er : ridx_main_v2 i k = ix2 (i 1) k := funext fun a => by
    match a with
    | ⟨0, _⟩ => rfl
    | ⟨1, _⟩ => rfl
  rw [el, er]
  rfl

end Cert.ReferenceIdeal.RefValue

end
-- ==== Proof.lean ====
/-
  A linear layer on a masked input, `out = (input · float(mask)) · weightᵀ + bias` over [4096, 4096] operands, computed
  by a tiled kernel and by a plain reference, are the same function over the extended reals.

  The kernel walks a 2 × 4 × 4 grid (row block, column block, contraction block). Each [2048, 1024] output block is
  owned by a run of four consecutive points: the first zeroes it, every point adds the product of the activation's
  and the weight's [·, 1024] column block, and the last adds the bias row. The activation is formed before the
  kernel as input times mask in a narrower float format — a change of format is the identity at the ideal values.
  So an output entry ends at `(((0 + B₀) + B₁) + B₂) + B₃ + bias`, the `B_s` the four consecutive quarters of the
  contraction over the 4096 shared columns; the reference computes that contraction whole and adds the bias
  broadcast down the rows. The two agree by re-association of a finite sum and `0 + x = x`, which hold on the
  extended reals without any finiteness, so the precondition is never opened.

  Modules: `Spec` states the function; `Sums` the re-association; `Step` one grid point's arithmetic at an index;
  `Blocks` where each point's blocks sit in their arrays and what the arrays hold; `KernelValue` that the kernel's
  output array is the function; `RefValue` that the reference's result is.
-/
import proofs.«423909_j63771674411297_3_alg».proof.Defs
import proofs.«423909_j63771674411297_3_alg».proof.Proof.Gen.Kernel.Frame
import proofs.«423909_j63771674411297_3_alg».proof.Proof.Gen.KernelIdeal.Value
import proofs.«423909_j63771674411297_3_alg».proof.Proof.Gen.Pre_finite_inputs
import proofs.«423909_j63771674411297_3_alg».proof.Proof.Gen.ReferenceIdeal.Run
import proofs.«423909_j63771674411297_3_alg».proof.Proof.KernelValue
import proofs.«423909_j63771674411297_3_alg».proof.Proof.RefValue
import Idealize.ShloMosaic.Adequacy
import Idealize.ShloMosaic.Init

noncomputable section

namespace Cert.Proof

open Idealize.ShloMosaic Idealize.SL.Sem

/-- The idealized kernel runs and leaves its arguments as they were: its value run, the result forgotten. -/
theorem frame_KernelIdeal : frame_KernelIdeal := fun m ρ _ =>
  (θ_run Cert.KernelIdeal.defs _ _).mono (fun _ h c => (h c).2) (Cert.KernelIdeal.Value.run (F := Ideal) m ρ)

/-- The idealized reference likewise. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories agreeing on the four arguments both programs end with the masked linear layer of those arguments
    in their result: the kernel by its block-by-block accumulation, the reference by its whole contraction. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact (Cert.ReferenceIdeal.Read.val_main_v5_eq _ _ _ _).trans
    ((Cert.ReferenceIdeal.RefValue.reference_eq _ _ _ _).trans (Cert.KernelIdeal.Result.G3_eq m c).symm)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
